-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg11 : FVec F S128x128 .f32) (main_arg12 : FVec F S128 .f32) (main_arg13 : FVec F S128x1 .f32) (main_arg14 : FVec F S1 .f32) (main_v33 : IVec S_ 1) : IVec S_ 1 :=
  let main_v34 : FVec F S128x128 .f32 := Host.absf main_arg11
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg13
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg14
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg8 : FVec F S128x64 .f32) (main_arg9 : FVec F S128x64 .f32) (main_arg10 : FVec F S64 .f32) (main_arg11 : FVec F S128x128 .f32) (main_arg12 : FVec F S128 .f32) (main_arg13 : FVec F S128x1 .f32) (main_arg14 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg8
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg9
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg11 main_arg12 main_arg13 main_arg14 main_v33

def fn {F : FTy → Type} [FloatOps F] (main_arg0 : FVec F S100000x128 .f32) (main_arg1 : IVec S1600000 32) (main_arg2 : IVec S1600000 32) (main_arg3 : IVec S1600000 32) (main_arg4 : IVec S1600000 32) (main_arg5 : FVec F S128x128 .f32) (main_arg6 : FVec F S128x128 .f32) (main_arg7 : FVec F S128 .f32) (main_arg8 : FVec F S128x64 .f32) (main_arg9 : FVec F S128x64 .f32) (main_arg10 : FVec F S64 .f32) (main_arg11 : FVec F S128x128 .f32) (main_arg12 : FVec F S128 .f32) (main_arg13 : FVec F S128x1 .f32) (main_arg14 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg5
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_arg11 main_arg12 main_arg13 main_arg14 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩
abbrev S1600000x64 : Shape := ⟨2, ![1600000, 64]⟩
abbrev S1x1 : Shape := ⟨2, ![1, 1]⟩
abbrev S8000x128 : Shape := ⟨2, ![8000, 128]⟩
abbrev S8000x1 : Shape := ⟨2, ![8000, 1]⟩

abbrev nBuf : Space → Nat
  | .hbm => 84
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .i32⟩
  | .hbm, ⟨4, _⟩ => ⟨S1600000, .i32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S128x128, .f32⟩
  | .hbm, ⟨12, _⟩ => ⟨S128, .f32⟩
  | .hbm, ⟨13, _⟩ => ⟨S128x1, .f32⟩
  | .hbm, ⟨14, _⟩ => ⟨S1, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S1x64, .f32⟩
  | .hbm, ⟨61, _⟩ => ⟨S100000x64, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x64, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x64, .f32⟩
  | .hbm, ⟨80, _⟩ => ⟨S1600000x128, .f32⟩
  | .hbm, ⟨81, _⟩ => ⟨S1x128, .f32⟩
  | .hbm, ⟨82, _⟩ => ⟨S1x1, .f32⟩
  | .hbm, ⟨83, _⟩ => ⟨S1600000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S8000x128, .f32⟩
  | .local _ .vmem, ⟨19, _⟩ => ⟨S8000x128, .f32⟩
  | .local _ .vmem, ⟨20, _⟩ => ⟨S128x128, .f32⟩
  | .local _ .vmem, ⟨21, _⟩ => ⟨S1x128, .f32⟩
  | .local _ .vmem, ⟨22, _⟩ => ⟨S128x1, .f32⟩
  | .local _ .vmem, ⟨23, _⟩ => ⟨S1x1, .f32⟩
  | .local _ .vmem, ⟨24, _⟩ => ⟨S8000x1, .f32⟩
  | .local _ .vmem, ⟨25, _⟩ => ⟨S8000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_cst_2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c : Ref sig .tc := ⟨.hbm, 28, rfl⟩
abbrev main_v9 : Ref sig .tc := ⟨.hbm, 29, rfl⟩
abbrev main_v10 : Ref sig .tc := ⟨.hbm, 30, rfl⟩
abbrev main_c_3 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_5 : Ref sig .tc := ⟨.hbm, 45, rfl⟩
abbrev main_v23 : Ref sig .tc := ⟨.hbm, 46, rfl⟩
abbrev main_v24 : Ref sig .tc := ⟨.hbm, 47, rfl⟩
abbrev main_c_6 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_7 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_c_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_10 : Ref sig .tc := ⟨.hbm, 71, rfl⟩
abbrev main_v44 : Ref sig .tc := ⟨.hbm, 72, rfl⟩
abbrev main_v45 : Ref sig .tc := ⟨.hbm, 73, rfl⟩
abbrev main_c_11 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  concatenates_S1600000x64_S1600000x64_S1600000x128_d1 : Shape.Concatenates [S1600000x64, S1600000x64] S1600000x128 1
  shapeCasts_S1_S1x1 : S1.ShapeCasts S1x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  broadcasts_S1x128_S8000x128 : S1x128.Broadcasts S8000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  dot_S8000x128_S128x128_S8000x128_1_0_0_1_n_n_wf : DotDims.WF S8000x128 S128x128 S8000x128 [1] [0] [0] [1] [] []
  dot_S8000x128_S128x1_S8000x1_1_0_0_1_n_n_wf : DotDims.WF S8000x128 S128x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S1600000x128.size a
  hwx2_0 : ∀ i : grid2.Coords, EltTy.bits .f32 = 32 ∨ (Rect.block (s := S1600000x128) S8000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S128x1.size a
  hwx2_3 : ∀ i : grid2.Coords, EltTy.bits .f32 = 32 ∨ (Rect.block (s := S128x1) S128x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8000x1.size a ≤ S1600000x1.size a
  hwx2_5 : ∀ i : grid2.Coords, EltTy.bits .f32 = 32 ∨ (Rect.block (s := S1600000x1) S8000x1.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v51) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S128x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S8000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩
abbrev S1600000x64 : Shape := ⟨2, ![1600000, 64]⟩
abbrev S1x1 : Shape := ⟨2, ![1, 1]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .i32⟩
  | .hbm, ⟨4, _⟩ => ⟨S1600000, .i32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S128x128, .f32⟩
  | .hbm, ⟨12, _⟩ => ⟨S128, .f32⟩
  | .hbm, ⟨13, _⟩ => ⟨S128x1, .f32⟩
  | .hbm, ⟨14, _⟩ => ⟨S1, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000x64, .f32⟩
  | .hbm, ⟨75, _⟩ => ⟨S100000x64, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x64, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000x64, .f32⟩
  | .hbm, ⟨94, _⟩ => ⟨S1600000x128, .f32⟩
  | .hbm, ⟨95, _⟩ => ⟨S1600000x128, .f32⟩
  | .hbm, ⟨96, _⟩ => ⟨S1x128, .f32⟩
  | .hbm, ⟨97, _⟩ => ⟨S1600000x128, .f32⟩
  | .hbm, ⟨98, _⟩ => ⟨S1600000x128, .f32⟩
  | .hbm, ⟨99, _⟩ => ⟨S_, .f32⟩
  | .hbm, ⟨100, _⟩ => ⟨S1600000x128, .f32⟩
  | .hbm, ⟨101, _⟩ => ⟨S1600000x128, .f32⟩
  | .hbm, ⟨102, _⟩ => ⟨S1600000x1, .f32⟩
  | .hbm, ⟨103, _⟩ => ⟨S1x1, .f32⟩
  | .hbm, ⟨104, _⟩ => ⟨S1600000x1, .f32⟩
  | .hbm, ⟨105, _⟩ => ⟨S1600000x1, .f32⟩
  | .hbm, ⟨106, _⟩ => ⟨S1600000x1, .f32⟩
  | .hbm, ⟨107, _⟩ => ⟨S1600000x1, .f32⟩
  | .hbm, ⟨108, _⟩ => ⟨S_, .f32⟩
  | .hbm, ⟨109, _⟩ => ⟨S1600000x1, .f32⟩
  | .hbm, ⟨110, _⟩ => ⟨S1600000x1, .f32⟩
  | .hbm, ⟨111, _⟩ => ⟨S_, .f32⟩
  | .hbm, ⟨112, _⟩ => ⟨S1600000x1, .f32⟩
  | .hbm, ⟨113, _⟩ => ⟨S1600000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_cst_2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c : Ref sig .tc := ⟨.hbm, 28, rfl⟩
abbrev main_v9 : Ref sig .tc := ⟨.hbm, 29, rfl⟩
abbrev main_v10 : Ref sig .tc := ⟨.hbm, 30, rfl⟩
abbrev main_c_3 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call0_cst : Ref sig .tc := ⟨.hbm, 49, rfl⟩
abbrev main_call0_v0 : Ref sig .tc := ⟨.hbm, 50, rfl⟩
abbrev main_v27 : Ref sig .tc := ⟨.hbm, 51, rfl⟩
abbrev main_c_5 : Ref sig .tc := ⟨.hbm, 52, rfl⟩
abbrev main_v28 : Ref sig .tc := ⟨.hbm, 53, rfl⟩
abbrev main_v29 : Ref sig .tc := ⟨.hbm, 54, rfl⟩
abbrev main_c_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call1_cst : Ref sig .tc := ⟨.hbm, 73, rfl⟩
abbrev main_call1_v0 : Ref sig .tc := ⟨.hbm, 74, rfl⟩
abbrev main_v46 : Ref sig .tc := ⟨.hbm, 75, rfl⟩
abbrev main_c_8 : Ref sig .tc := ⟨.hbm, 76, rfl⟩
abbrev main_v47 : Ref sig .tc := ⟨.hbm, 77, rfl⟩
abbrev main_v48 : Ref sig .tc := ⟨.hbm, 78, rfl⟩
abbrev main_c_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_c_10 : Ref sig .tc := ⟨.hbm, 85, rfl⟩
abbrev main_v54 : Ref sig .tc := ⟨.hbm, 86, rfl⟩
abbrev main_v55 : Ref sig .tc := ⟨.hbm, 87, rfl⟩
abbrev main_c_11 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_call2_cst : Ref sig .tc := ⟨.hbm, 99, rfl⟩
abbrev main_call2_v0 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_12 : Ref sig .tc := ⟨.hbm, 108, rfl⟩
abbrev main_v73 : Ref sig .tc := ⟨.hbm, 109, rfl⟩
abbrev main_v74 : Ref sig .tc := ⟨.hbm, 110, rfl⟩
abbrev main_cst_13 : Ref sig .tc := ⟨.hbm, 111, rfl⟩
abbrev main_v75 : Ref sig .tc := ⟨.hbm, 112, rfl⟩
abbrev main_v76 : Ref sig .tc := ⟨.hbm, 113, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  concatenates_S1600000x64_S1600000x64_S1600000x128_d1 : Shape.Concatenates [S1600000x64, S1600000x64] S1600000x128 1
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  dot_S1600000x128_S128x128_S1600000x128_1_0_0_1_n_n_wf : DotDims.WF S1600000x128 S128x128 S1600000x128 [1] [0] [0] [1] [] []
  dot_S1600000x128_S128x1_S1600000x1_1_0_0_1_n_n_wf : DotDims.WF S1600000x128 S128x1 S1600000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def dot_S1600000x128_S128x1_S1600000x1_1_0_0_1_n_n : DotDims S1600000x128 S128x1 S1600000x1 where
  lhsContracting := [1]
  rhsContracting := [0]
  lhsNonContracting := [0]
  rhsNonContracting := [1]
  lhsBatch := []
  rhsBatch := []
  wf := dot_S1600000x128_S128x1_S1600000x1_1_0_0_1_n_n_wf

class Facts : Prop extends Facts₀ where

variable [Facts]
-- ==== Proof.Spec.lean ====
/-
  The two dense stages of the model, as functions of whole arrays, index by index over the extended reals.

  `sage X A Ws Wn B` is one SAGE layer's dense half: row `p`, column `q` of `relu (X · Ws + A · Wn + b)`, the bias a
  one-row array. `edgeMlp X W1 B1 W2 B2` is the edge scorer: `sigmoid (relu (X · W1 + b1) · W2 + b2)`, the sigmoid
  written `1 / (1 + e^(-s))`. Both are generic in the number of rows, so that the same function is stated of a block of
  rows and of the whole array: row `p` of the result depends on row `p` of `X` (and of `A`) only, which is why a
  kernel that computes it block of rows by block of rows computes the whole array's function.
-/
import Idealize.ShloMosaic.Lib.ValueIdx
import Idealize.ShloMosaic.PureOps.Ideal.Laws

noncomputable section

open scoped BigOperators

namespace Cert.Spec

open Idealize.ShloMosaic Idealize.ShloMosaic.ValueIdx

/-- A bias vector as the one-row array the dense stages add to every row. -/
def row {h : ℕ} (b : FVec Ideal ⟨1, ![h]⟩ .f32) : FVec Ideal ⟨2, ![1, h]⟩ .f32 := fun i => b (ix1 (i 1))

theorem row_apply {h : ℕ} (b : FVec Ideal ⟨1, ![h]⟩ .f32) (u : Fin 1) (q : Fin h) : row b (ix2 u q) = b (ix1 q) := rfl

/-- One SAGE layer's dense half at `(p, q)`: `max (Σ_k X[p,k]·Ws[k,q] + Σ_k A[p,k]·Wn[k,q] + B[0,q], 0)`. -/
def sage {n h : ℕ} (X A : FVec Ideal ⟨2, ![n, 128]⟩ .f32) (Ws Wn : FVec Ideal ⟨2, ![128, h]⟩ .f32)
    (B : FVec Ideal ⟨2, ![1, h]⟩ .f32) : FVec Ideal ⟨2, ![n, h]⟩ .f32 :=
  fun i => max (((∑ k : Fin 128, X (ix2 (i 0) k) * Ws (ix2 k (i 1))) + (∑ k : Fin 128, A (ix2 (i 0) k) * Wn (ix2 k (i 1))))
    + B (ix2 (0 : Fin 1) (i 1))) 0

theorem sage_apply {n h : ℕ} (X A : FVec Ideal ⟨2, ![n, 128]⟩ .f32) (Ws Wn : FVec Ideal ⟨2, ![128, h]⟩ .f32)
    (B : FVec Ideal ⟨2, ![1, h]⟩ .f32) (p : Fin n) (q : Fin h) :
    sage X A Ws Wn B (ix2 p q) = max (((∑ k : Fin 128, X (ix2 p k) * Ws (ix2 k q)) + (∑ k : Fin 128, A (ix2 p k) * Wn (ix2 k q)))
      + B (ix2 (0 : Fin 1) q)) 0 := rfl

/-- The hidden layer of the edge scorer at `(p, j)`: `max (Σ_k X[p,k]·W1[k,j] + B1[0,j], 0)`. -/
def hidden {n : ℕ} (X : FVec Ideal ⟨2, ![n, 128]⟩ .f32) (W1 : FVec Ideal ⟨2, ![128, 128]⟩ .f32)
    (B1 : FVec Ideal ⟨2, ![1, 128]⟩ .f32) : FVec Ideal ⟨2, ![n, 128]⟩ .f32 :=
  fun i => max ((∑ k : Fin 128, X (ix2 (i 0) k) * W1 (ix2 k (i 1))) + B1 (ix2 (0 : Fin 1) (i 1))) 0

theorem hidden_apply {n : ℕ} (X : FVec Ideal ⟨2, ![n, 128]⟩ .f32) (W1 : FVec Ideal ⟨2, ![128, 128]⟩ .f32)
    (B1 : FVec Ideal ⟨2, ![1, 128]⟩ .f32) (p : Fin n) (j : Fin 128) :
    hidden X W1 B1 (ix2 p j) = max ((∑ k : Fin 128, X (ix2 p k) * W1 (ix2 k j)) + B1 (ix2 (0 : Fin 1) j)) 0 := rfl

/-- The edge scorer at `(p, q)` (`q` the one column): the sigmoid of `Σ_j hidden[p,j]·W2[j,q] + B2[0,q]`. -/
def edgeMlp {n : ℕ} (X : FVec Ideal ⟨2, ![n, 128]⟩ .f32) (W1 : FVec Ideal ⟨2, ![128, 128]⟩ .f32)
    (B1 : FVec Ideal ⟨2, ![1, 128]⟩ .f32) (W2 : FVec Ideal ⟨2, ![128, 1]⟩ .f32) (B2 : FVec Ideal ⟨2, ![1, 1]⟩ .f32) :
    FVec Ideal ⟨2, ![n, 1]⟩ .f32 :=
  fun i => Ideal.logistic ((∑ j : Fin 128, hidden X W1 B1 (ix2 (i 0) j) * W2 (ix2 j (i 1))) + B2 (ix2 (0 : Fin 1) (i 1)))

theorem edgeMlp_apply {n : ℕ} (X : FVec Ideal ⟨2, ![n, 128]⟩ .f32) (W1 : FVec Ideal ⟨2, ![128, 128]⟩ .f32)
    (B1 : FVec Ideal ⟨2, ![1, 128]⟩ .f32) (W2 : FVec Ideal ⟨2, ![128, 1]⟩ .f32) (B2 : FVec Ideal ⟨2, ![1, 1]⟩ .f32)
    (p : Fin n) (q : Fin 1) :
    edgeMlp X W1 B1 W2 B2 (ix2 p q)
      = Ideal.logistic ((∑ j : Fin 128, hidden X W1 B1 (ix2 p j) * W2 (ix2 j q)) + B2 (ix2 (0 : Fin 1) q)) := rfl

/-! ## Each function's value at an index depends on the operands only through the entries it reads

Row `p` of a result reads row `p` of the row operands and whole columns of the weights: if two sets of operands agree on
those entries — a block of rows against the rows of the whole array, a weight block against the weight array — the results agree. -/

theorem sage_congr {n n' h : ℕ} (X A : FVec Ideal ⟨2, ![n, 128]⟩ .f32) (Ws Wn : FVec Ideal ⟨2, ![128, h]⟩ .f32)
    (B : FVec Ideal ⟨2, ![1, h]⟩ .f32) (X' A' : FVec Ideal ⟨2, ![n', 128]⟩ .f32) (Ws' Wn' : FVec Ideal ⟨2, ![128, h]⟩ .f32)
    (B' : FVec Ideal ⟨2, ![1, h]⟩ .f32) (i : (⟨2, ![n, h]⟩ : Shape).Idx) (i' : (⟨2, ![n', h]⟩ : Shape).Idx)
    (hX : ∀ k : Fin 128, X (ix2 (i 0) k) = X' (ix2 (i' 0) k))
    (hA : ∀ k : Fin 128, A (ix2 (i 0) k) = A' (ix2 (i' 0) k))
    (hWs : ∀ k : Fin 128, Ws (ix2 k (i 1)) = Ws' (ix2 k (i' 1)))
    (hWn : ∀ k : Fin 128, Wn (ix2 k (i 1)) = Wn' (ix2 k (i' 1)))
    (hB : B (ix2 (0 : Fin 1) (i 1)) = B' (ix2 (0 : Fin 1) (i' 1))) :
    sage X A Ws Wn B i = sage X' A' Ws' Wn' B' i' := by
  unfold sage
  simp only [hX, hA, hWs, hWn, hB]

theorem hidden_congr {n n' : ℕ} (X : FVec Ideal ⟨2, ![n, 128]⟩ .f32) (W1 : FVec Ideal ⟨2, ![128, 128]⟩ .f32)
    (B1 : FVec Ideal ⟨2, ![1, 128]⟩ .f32) (X' : FVec Ideal ⟨2, ![n', 128]⟩ .f32) (W1' : FVec Ideal ⟨2, ![128, 128]⟩ .f32)
    (B1' : FVec Ideal ⟨2, ![1, 128]⟩ .f32) (p : Fin n) (p' : Fin n') (j : Fin 128)
    (hX : ∀ k : Fin 128, X (ix2 p k) = X' (ix2 p' k))
    (hW1 : ∀ k j : Fin 128, W1 (ix2 k j) = W1' (ix2 k j))
    (hB1 : ∀ j : Fin 128, B1 (ix2 (0 : Fin 1) j) = B1' (ix2 (0 : Fin 1) j)) :
    hidden X W1 B1 (ix2 p j) = hidden X' W1' B1' (ix2 p' j) := by
  rw [hidden_apply, hidden_apply]
  simp only [hX, hW1, hB1]

theorem edgeMlp_congr {n n' : ℕ} (X : FVec Ideal ⟨2, ![n, 128]⟩ .f32) (W1 : FVec Ideal ⟨2, ![128, 128]⟩ .f32)
    (B1 : FVec Ideal ⟨2, ![1, 128]⟩ .f32) (W2 : FVec Ideal ⟨2, ![128, 1]⟩ .f32) (B2 : FVec Ideal ⟨2, ![1, 1]⟩ .f32)
    (X' : FVec Ideal ⟨2, ![n', 128]⟩ .f32) (W1' : FVec Ideal ⟨2, ![128, 128]⟩ .f32)
    (B1' : FVec Ideal ⟨2, ![1, 128]⟩ .f32) (W2' : FVec Ideal ⟨2, ![128, 1]⟩ .f32) (B2' : FVec Ideal ⟨2, ![1, 1]⟩ .f32)
    (i : (⟨2, ![n, 1]⟩ : Shape).Idx) (i' : (⟨2, ![n', 1]⟩ : Shape).Idx)
    (hX : ∀ k : Fin 128, X (ix2 (i 0) k) = X' (ix2 (i' 0) k))
    (hW1 : ∀ k j : Fin 128, W1 (ix2 k j) = W1' (ix2 k j))
    (hB1 : ∀ j : Fin 128, B1 (ix2 (0 : Fin 1) j) = B1' (ix2 (0 : Fin 1) j))
    (hW2 : ∀ j : Fin 128, W2 (ix2 j (i 1)) = W2' (ix2 j (i' 1)))
    (hB2 : B2 (ix2 (0 : Fin 1) (i 1)) = B2' (ix2 (0 : Fin 1) (i' 1))) :
    edgeMlp X W1 B1 W2 B2 i = edgeMlp X' W1' B1' W2' B2' i' := by
  have e1 : ∀ j : Fin 128, hidden X W1 B1 (ix2 (i 0) j) = hidden X' W1' B1' (ix2 (i' 0) j) :=
    fun j => hidden_congr X W1 B1 X' W1' B1' (i 0) (i' 0) j hX hW1 hB1
  unfold edgeMlp
  simp only [e1, hW2, hB2]

end Cert.Spec

end
-- ==== Proof.LibDotRows.lean ====
/-
  A plain rows-by-columns contraction read at an index.

  A `dot_general` (or a `tpu.matmul`) whose dimension numbers are the plain ones — the left operand `[n, K]` contracted
  on its axis 1, the right operand `[K, h]` on its axis 0, no batch axis — has, at the result index `(p, q)`, the
  operand indices `(p, k)` and `(k, q)`: the sum over the contraction shape is the sum over `k : Fin K` of
  `l (p, k) * r (k, q)`. Stated once for ANY such record of dimension numbers (`Plain D`: its six lists), so that
  one proof serves every size; a printed record meets `Plain` by `⟨rfl, rfl, rfl, rfl, rfl, rfl⟩`.
-/
import Idealize.ShloMosaic.Lib.ValueIdx
import Idealize.ShloMosaic.PureOps.Ideal.Laws

noncomputable section

open scoped BigOperators

namespace Idealize.ShloMosaic.DotRows

open Idealize.ShloMosaic Idealize.ShloMosaic.ValueIdx

variable {n K h : ℕ}

/-- The dimension numbers of a plain `[n, K] × [K, h] → [n, h]` product: contract the left operand's axis 1 with the
    right operand's axis 0; rows from the left, columns from the right; no batch axis. -/
structure Plain (D : DotDims ⟨2, ![n, K]⟩ ⟨2, ![K, h]⟩ ⟨2, ![n, h]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![n, K]⟩ ⟨2, ![K, h]⟩ ⟨2, ![n, h]⟩}

/-- Two coordinates of one index at equal positions are equal. -/
private theorem coord_congr {s : Shape} (j : s.Idx) (p q : ℕ) (hp : p < s.rank) (hq : q < s.rank) (e : p = q) :
    (j ⟨p, hp⟩).val = (j ⟨q, hq⟩).val := by subst e; rfl

theorem Plain.rank_contr (hD : Plain D) : D.contr.rank = 1 := by rw [D.rank_contr, hD.lc]; rfl

theorem Plain.size_contr (hD : Plain D) : D.contr.size ⟨0, by rw [hD.rank_contr]; exact Nat.one_pos⟩ = K := by
  have h0 : 0 < D.lhsContracting.length := by rw [hD.lc]; exact Nat.one_pos
  have e := D.size_contr 0 h0
  refine e.trans ?_
  have : D.lhsContracting[0]'h0 = (1 : Fin 2) := by simp [hD.lc]
  rw [this]; rfl

/-- The left operand's row coordinate is the result's row. -/
theorem Plain.lhs_row (hD : Plain D) (j : (⟨2, ![n, h]⟩ : Shape).Idx) (k : D.contr.Idx) :
    (D.lhsIdx j k 0).val = (j 0).val := by
  unfold DotDims.lhsIdx
  rw [dif_neg (show ¬(0 : Fin 2) ∈ D.lhsBatch by rw [hD.lb]; exact List.not_mem_nil),
    dif_pos (show (0 : Fin 2) ∈ D.lhsNonContracting by rw [hD.ln]; exact List.mem_singleton.mpr rfl)]
  simp only [Fin.val_cast]
  exact coord_congr j _ _ _ _ (by simp [hD.lb, hD.ln])

/-- The left operand's column coordinate is the contraction's. -/
theorem Plain.lhs_col (hD : Plain D) (j : (⟨2, ![n, h]⟩ : Shape).Idx) (k : D.contr.Idx) :
    (D.lhsIdx j k 1).val = (k ⟨0, by rw [hD.rank_contr]; exact Nat.one_pos⟩).val :=
  D.lhsIdx_val_of_single hD.lc j k

/-- The right operand's row coordinate is the contraction's. -/
theorem Plain.rhs_row (hD : Plain D) (j : (⟨2, ![n, h]⟩ : Shape).Idx) (k : D.contr.Idx) :
    (D.rhsIdx j k 0).val = (k ⟨0, by rw [hD.rank_contr]; exact Nat.one_pos⟩).val :=
  D.rhsIdx_val_of_single hD.rc j k

/-- The right operand's column coordinate is the result's column. -/
theorem Plain.rhs_col (hD : Plain D) (j : (⟨2, ![n, h]⟩ : Shape).Idx) (k : D.contr.Idx) :
    (D.rhsIdx j k 1).val = (j 1).val := by
  unfold DotDims.rhsIdx
  rw [dif_neg (show ¬(1 : Fin 2) ∈ D.rhsBatch by rw [hD.rb]; exact List.not_mem_nil),
    dif_pos (show (1 : Fin 2) ∈ D.rhsNonContracting by rw [hD.rn]; exact List.mem_singleton.mpr rfl)]
  simp only [Fin.val_cast]
  exact coord_congr j _ _ _ _ (by simp [hD.lb, hD.ln, hD.rn])

/-- THE SUM RE-INDEXED: over the contraction shape's indices it is the sum over `k : Fin K` of the left operand's row
    `p` times the right operand's column `q`. -/
theorem Plain.sum_eq (hD : Plain D) {M : Type*} [AddCommMonoid M] [Mul M]
    (l : (⟨2, ![n, K]⟩ : Shape).Idx → M) (r : (⟨2, ![K, h]⟩ : Shape).Idx → M) (p : Fin n) (q : Fin h) :
    ∑ k : D.contr.Idx, l (D.lhsIdx (ix2 p q) k) * r (D.rhsIdx (ix2 p q) k) = ∑ k : Fin K, l (ix2 p k) * r (ix2 k q) := by
  rw [← Equiv.sum_comp (contrEquiv1 D K hD.rank_contr hD.size_contr).symm]
  refine Finset.sum_congr rfl fun k _ => ?_
  have hk := contrEquiv1_symm_val D K hD.rank_contr hD.size_contr k
  have el : D.lhsIdx (ix2 p q) ((contrEquiv1 D K hD.rank_contr hD.size_contr).symm k) = ix2 p k :=
    funext fun a => Fin.ext (by
      match a with
      | ⟨0, _⟩ => exact hD.lhs_row _ _
      | ⟨1, _⟩ => exact (hD.lhs_col _ _).trans hk)
  have er : D.rhsIdx (ix2 p q) ((contrEquiv1 D K hD.rank_contr hD.size_contr).symm k) = ix2 k q :=
    funext fun a => Fin.ext (by
      match a with
      | ⟨0, _⟩ => exact (hD.rhs_row _ _).trans hk
      | ⟨1, _⟩ => exact hD.rhs_col _ _)
  rw [el, er]

/-- The host's `dot_general` with plain dimension numbers, at the ideal values, read at `(p, q)`. -/
theorem Plain.dotGeneral_apply (hD : Plain D) {φ₁ φ₂ : FTy} (prec : Option ContractPrecision) (sched : HostSchedule)
    (l : FVec Ideal ⟨2, ![n, K]⟩ φ₁) (r : FVec Ideal ⟨2, ![K, h]⟩ φ₂) (p : Fin n) (q : Fin h) :
    FloatOps.dotGeneral D prec sched l r (ix2 p q) = ∑ k : Fin K, l (ix2 p k) * r (ix2 k q) :=
  (Ideal.dotGeneral_apply D prec sched l r (ix2 p q)).trans (hD.sum_eq (M := EReal) l r p q)

/-- A `tpu.matmul` with plain dimension numbers into the zero accumulator, at the ideal values, read at `(p, q)`. -/
theorem Plain.matmul_zero_apply (hD : Plain D) {φ₁ φ₂ : FTy} (prec : Option ContractPrecision)
    (l : FVec Ideal ⟨2, ![n, K]⟩ φ₁) (r : FVec Ideal ⟨2, ![K, h]⟩ φ₂) (p : Fin n) (q : Fin h) :
    FloatOps.matmul D prec l r (constant ⟨2, ![n, h]⟩ .f32 0x00000000#32) (ix2 p q) = ∑ k : Fin K, l (ix2 p k) * r (ix2 k q) :=
  (Ideal.matmul_constant_zero_apply D prec l r (ix2 p q)).trans (hD.sum_eq (M := EReal) l r p q)

/-- The same two facts in the spelling the printed programs use: the vector-level `matmul` and `Host.dotGeneral`. -/
theorem Plain.matmul_apply (hD : Plain D) {φ₁ φ₂ : FTy} (prec : Option ContractPrecision)
    (l : FVec Ideal ⟨2, ![n, K]⟩ φ₁) (r : FVec Ideal ⟨2, ![K, h]⟩ φ₂) (p : Fin n) (q : Fin h) :
    matmul D prec l r (constant ⟨2, ![n, h]⟩ .f32 0x00000000#32) (ix2 p q) = ∑ k : Fin K, l (ix2 p k) * r (ix2 k q) :=
  hD.matmul_zero_apply prec l r p q

theorem Plain.hostDot_apply (hD : Plain D) {φ₁ φ₂ : FTy} (prec : Option ContractPrecision)
    (l : FVec Ideal ⟨2, ![n, K]⟩ φ₁) (r : FVec Ideal ⟨2, ![K, h]⟩ φ₂) (p : Fin n) (q : Fin h) :
    Host.dotGeneral D prec l r (ix2 p q) = ∑ k : Fin K, l (ix2 p k) * r (ix2 k q) :=
  hD.dotGeneral_apply prec .single l r p q

end Idealize.ShloMosaic.DotRows

end
-- ==== Proof.Payload.lean ====
/-
  What each kernel body stores, as a function of the blocks it loads.

  Each of the three bodies loads its operand blocks whole, computes, and stores one block. At the ideal values the
  changes of float format are the identity, a matrix product into a zero accumulator is the plain sum of products,
  the bias row is broadcast down the rows, `relu` is the maximum with zero and the sigmoid is `1 / (1 + e^(-s))`:
  so the two SAGE bodies store `Spec.sage` of their blocks and the edge scorer's body stores `Spec.edgeMlp` of its
  blocks — the same functions that are stated of the whole arrays, at the block's number of rows.
-/
import proofs.«116739_j80642305949836_1_alg».proof.Proof.Gen.KernelIdeal.Skeleton
import proofs.«116739_j80642305949836_1_alg».proof.Proof.Spec
import proofs.«116739_j80642305949836_1_alg».proof.Proof.LibDotRows
import Idealize.ShloMosaic.Lib.ValueLayout

noncomputable section

open scoped BigOperators

namespace Cert.KernelIdeal.Payload

open Idealize.ShloMosaic Idealize.ShloMosaic.ValueIdx Idealize.ShloMosaic.DotRows Cert.KernelIdeal Cert.KernelIdeal.Gen

/-! ## The four products' dimension numbers are the plain rows-by-columns ones -/

theorem plain_rows5000_128 : Plain dot_S5000x128_S128x128_S5000x128_1_0_0_1_n_n := ⟨rfl, rfl, rfl, rfl, rfl, rfl⟩
theorem plain_rows5000_64 : Plain dot_S5000x128_S128x64_S5000x64_1_0_0_1_n_n := ⟨rfl, rfl, rfl, rfl, rfl, rfl⟩
theorem plain_rows8000_128 : Plain dot_S8000x128_S128x128_S8000x128_1_0_0_1_n_n := ⟨rfl, rfl, rfl, rfl, rfl, rfl⟩
theorem plain_rows8000_1 : Plain dot_S8000x128_S128x1_S8000x1_1_0_0_1_n_n := ⟨rfl, rfl, rfl, rfl, rfl, rfl⟩

/-- The zero word denotes zero. -/
theorem zero_word : (Scalar.ofBits (F := Ideal) .f32 0x00000000#32) = (0 : EReal) := Ideal.ofBits_zero_f32

/-! ## The first SAGE layer's body: a block of 5000 rows, 128 columns out -/

theorem sage128_eq (x0 x2 : FVec Ideal S5000x128 .f32) (x5 x7 : FVec Ideal S128x128 .f32) (x12 : FVec Ideal S1x128 .f32) :
    k0_pay1 (F := Ideal) x0 x2 x5 x7 x12 = Cert.Spec.sage x0 x2 x5 x7 x12 := by
  funext j
  obtain ⟨p, q, rfl⟩ : ∃ (p : Fin 5000) (q : Fin 128), j = ix2 p q := ⟨j 0, j 1, eq_ix2 j⟩
  rw [Cert.Spec.sage_apply]
  unfold k0_pay1
  simp only [maximumf_apply, addf_apply, broadcast_apply, zero_word]
  rw [plain_rows5000_128.matmul_apply, plain_rows5000_128.matmul_apply, broadcastTo_1b_ab_apply]
  simp only [truncf_apply, shapeCast_self]

/-! ## The second SAGE layer's body: a block of 5000 rows, 64 columns out -/

theorem sage64_eq (x0 x3 : FVec Ideal S5000x128 .f32) (x6 x8 : FVec Ideal S128x64 .f32) (x13 : FVec Ideal S1x64 .f32) :
    k1_pay1 (F := Ideal) x0 x3 x6 x8 x13 = Cert.Spec.sage x0 x3 x6 x8 x13 := by
  funext j
  obtain ⟨p, q, rfl⟩ : ∃ (p : Fin 5000) (q : Fin 64), j = ix2 p q := ⟨j 0, j 1, eq_ix2 j⟩
  rw [Cert.Spec.sage_apply]
  unfold k1_pay1
  simp only [maximumf_apply, addf_apply, broadcast_apply, zero_word]
  rw [plain_rows5000_64.matmul_apply, plain_rows5000_64.matmul_apply, broadcastTo_1b_ab_apply]
  simp only [truncf_apply, shapeCast_self]

/-! ## The edge scorer's body: a block of 8000 rows -/

/-- The sigmoid at an index is the sigmoid of the element. -/
theorem logistic_apply {s : Shape} {φ : FTy} (a : FVec Ideal s φ) (i : s.Idx) : logistic a i = Ideal.logistic (a i) := rfl

/-- The body's hidden activations (first product, bias, relu) at `(p, j)`, the identity casts already dropped. -/
theorem hidden_at (x0 : FVec Ideal S8000x128 .f32) (x3 : FVec Ideal S128x128 .f32) (x6 : FVec Ideal S1x128 .f32)
    (p : Fin 8000) (j : Fin 128) :
    maximumf (addf (matmul dot_S8000x128_S128x128_S8000x128_1_0_0_1_n_n none
          (truncf .bf16 x0 bitsLt_bf16_f32) (truncf .bf16 x3 bitsLt_bf16_f32)
          (constant S8000x128 .f32 0x00000000#32))
        (broadcastTo S8000x128 x6 broadcasts_S1x128_S8000x128))
      (broadcast S8000x128 (Scalar.ofBits (F := Ideal) .f32 0x00000000#32)) (ix2 p j)
    = Cert.Spec.hidden x0 x3 x6 (ix2 p j) := by
  rw [Cert.Spec.hidden_apply]
  simp only [maximumf_apply, addf_apply, broadcast_apply, zero_word]
  rw [plain_rows8000_128.matmul_apply, broadcastTo_1b_ab_apply]
  simp only [truncf_apply]

theorem edge_eq (x0 : FVec Ideal S8000x128 .f32) (x3 : FVec Ideal S128x128 .f32) (x6 : FVec Ideal S1x128 .f32)
    (x13 : FVec Ideal S128x1 .f32) (x16 : FVec Ideal S1x1 .f32) :
    k2_pay1 (F := Ideal) x0 x3 x6 x13 x16 = Cert.Spec.edgeMlp x0 x3 x6 x13 x16 := by
  funext j
  obtain ⟨p, q, rfl⟩ : ∃ (p : Fin 8000) (q : Fin 1), j = ix2 p q := ⟨j 0, j 1, eq_ix2 j⟩
  rw [Cert.Spec.edgeMlp_apply]
  unfold k2_pay1
  simp only [logistic_apply, addf_apply]
  rw [plain_rows8000_1.matmul_apply, broadcastTo_1b_ab_apply]
  simp only [shapeCast_self]
  simp only [truncf_apply, hidden_at]

end Cert.KernelIdeal.Payload

end
-- ==== Proof.Region0.lean ====
/-
  The first SAGE layer's region: what its output array holds after the run.

  The region runs over 20 grid points. At point `t` the two row operands' windows hold rows `5000·t … 5000·t + 4999`
  of their arrays, the two weight windows and the bias window hold their whole arrays, and the body stores
  `Spec.sage` of those blocks (`Payload.sage128_eq`) into the output window's block, rows `5000·t …` of the output.
  Row `p` of `Spec.sage` reads row `p` of the row operands only, so what point `t` writes back is block `t` of
  `Spec.sage` of the WHOLE arrays; the 20 blocks tile the 100000 rows, so the array ends as that function. All of it
  at a parameter `V`, the buffer contents when the region is entered.
-/
import proofs.«116739_j80642305949836_1_alg».proof.Proof.Gen.KernelIdeal.Frame
import proofs.«116739_j80642305949836_1_alg».proof.Proof.Payload
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the row windows and the output window are at block `t` of the
    rows, every other block index is zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT `t` WRITES BACK is block `t` of `Spec.sage` of the arrays as the region finds them. -/
theorem flushed_eq (c : Dev nD) (t : Fin cfg0.N) :
    (dat0 V c).flushed 5 t = ((cfg0.win 5).blk t).view.read (Elt Ideal)
      (Cert.Spec.sage (V c main_arg0) (V c main_v20) (V c main_arg5) (V c main_arg6) (V c main_v21)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  rw [Payload.sage128_eq (iblk0 V c 0 t) (iblk0 V c 1 t) (iblk0 V c 2 t) (iblk0 V c 3 t) (iblk0 V c 4 t)]
  obtain ⟨e00, e01, e10, e11, e20, e21, e30, e31, e40, e41, e50, e51⟩ := idx_facts t
  funext j
  show Cert.Spec.sage (iblk0 V c 0 t) (iblk0 V c 1 t) (iblk0 V c 2 t) (iblk0 V c 3 t) (iblk0 V c 4 t) j
    = Cert.Spec.sage (V c main_arg0) (V c main_v20) (V c main_arg5) (V c main_arg6) (V c main_v21) (((cfg0.win 5).blk t).view.emb j)
  have hj0 : (j 0).val < 5000 := (j 0).isLt
  have hj1 : (j 1).val < 128 := (j 1).isLt
  refine Cert.Spec.sage_congr (iblk0 V c 0 t) (iblk0 V c 1 t) (iblk0 V c 2 t) (iblk0 V c 3 t) (iblk0 V c 4 t)
    (V c main_arg0) (V c main_v20) (V c main_arg5) (V c main_arg6) (V c main_v21) j (((cfg0.win 5).blk t).view.emb j)
    (fun k => ?_) (fun k => ?_) (fun k => ?_) (fun k => ?_) ?_
  · show V c main_arg0 (((cfg0.win 0).blk t).view.emb (ix2 (j 0) k)) = V c main_arg0 (ix2 ((((cfg0.win 5).blk t).view.emb j) 0) k)
    refine congrArg (V c main_arg0) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · show V c main_v20 (((cfg0.win 1).blk t).view.emb (ix2 (j 0) k)) = V c main_v20 (ix2 ((((cfg0.win 5).blk t).view.emb j) 0) k)
    refine congrArg (V c main_v20) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  · show V c main_arg5 (((cfg0.win 2).blk t).view.emb (ix2 k (j 1))) = V c main_arg5 (ix2 k ((((cfg0.win 5).blk t).view.emb j) 1))
    refine congrArg (V c main_arg5) (funext fun a => Fin.ext ?_)
    match a with
    | ⟨0, _⟩ => show win0_2.index t (0 : Fin 2) * 128 + 1 * k.val = k.val; omega
    | ⟨1, _⟩ => show win0_2.index t (1 : Fin 2) * 128 + 1 * (j 1).val = win0_5.index t (1 : Fin 2) * 128 + 1 * (j 1).val; omega
  · show V c main_arg6 (((cfg0.win 3).blk t).view.emb (ix2 k (j 1))) = V c main_arg6 (ix2 k ((((cfg0.win 5).blk t).view.emb j) 1))
    refine congrArg (V c main_arg6) (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_5.index t (1 : Fin 2) * 128 + 1 * (j 1).val; omega
  · show V c main_v21 (((cfg0.win 4).blk t).view.emb (ix2 (0 : Fin 1) (j 1))) = V c main_v21 (ix2 (0 : Fin 1) ((((cfg0.win 5).blk t).view.emb j) 1))
    refine congrArg (V c main_v21) (funext fun a => Fin.ext ?_)
    match a with
    | ⟨0, _⟩ => show win0_4.index t (0 : Fin 2) * 1 + 1 * 0 = 0; omega
    | ⟨1, _⟩ => show win0_4.index t (1 : Fin 2) * 128 + 1 * (j 1).val = win0_5.index t (1 : Fin 2) * 128 + 1 * (j 1).val; omega

/-- An index of the output array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v22).slice (win0_5.rect t)).set ↔ _
  rw [View.set_slice_whole, Rect.mem_set_unit]
  exact Iff.rfl

/-- Every row of the output is in the block of the point `row / 5000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_5 _, ?_⟩
  rw [mem_blk]
  obtain ⟨e00, e01, e10, e11, e20, e21, e30, e31, e40, e41, e50, e51⟩ := idx_facts ⟨(i 0).val / 5000, by rw [hN]; omega⟩
  intro a
  match a with
  | ⟨0, _⟩ =>
    show win0_5.index ⟨(i 0).val / 5000, _⟩ (0 : Fin 2) * 5000 ≤ (i 0).val ∧ (i 0).val < win0_5.index ⟨(i 0).val / 5000, _⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, _⟩ (1 : Fin 2) * 128 ≤ (i 1).val ∧ (i 1).val < win0_5.index ⟨(i 0).val / 5000, _⟩ (1 : Fin 2) * 128 + 128
    rw [e51]; omega

/-- THE REGION'S VALUE: after the run the output array is `Spec.sage` of the arrays the region found. -/
theorem value (c : Dev nD) :
    (dat0 V c).arrAt 5 cfg0.N
      = Cert.Spec.sage (V c main_arg0) (V c main_v20) (V c main_arg5) (V c main_arg6) (V c main_v21) :=
  (dat0 V c).arrAt_eq_of_cover 5 _ (fun t _ => flushed_eq V c t) cover

end Cert.KernelIdeal.Region0

end
-- ==== Proof.Region1.lean ====
/-
  The second SAGE layer's region: what its output array holds after the run.

  As in the first layer's region, with 64 output columns: at point `t` of 20 the two row operands' windows hold rows
  `5000·t … 5000·t + 4999` of their arrays (the first layer's output and its neighbour mean), the weight and bias windows
  their whole arrays, and the body stores `Spec.sage` of those blocks (`Payload.sage64_eq`). Row `p` of `Spec.sage`
  reads row `p` of the row operands only, so point `t` writes back block `t` of `Spec.sage` of the whole arrays, and the
  20 blocks tile the 100000 rows. All of it at a parameter `V`, the buffer contents when the region is entered.
-/
import proofs.«116739_j80642305949836_1_alg».proof.Proof.Gen.KernelIdeal.Frame
import proofs.«116739_j80642305949836_1_alg».proof.Proof.Payload
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the row windows and the output window are at block `t` of the
    rows, every other block index is zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT `t` WRITES BACK is block `t` of `Spec.sage` of the arrays as the region finds them. -/
theorem flushed_eq (c : Dev nD) (t : Fin cfg1.N) :
    (dat1 V c).flushed 5 t = ((cfg1.win 5).blk t).view.read (Elt Ideal)
      (Cert.Spec.sage (V c main_v22) (V c main_v34) (V c main_arg8) (V c main_arg9) (V c main_v35)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x64) hz, View.ld_unit_zero (S := S1x64) hz]
  rw [Payload.sage64_eq (iblk1 V c 0 t) (iblk1 V c 1 t) (iblk1 V c 2 t) (iblk1 V c 3 t) (iblk1 V c 4 t)]
  obtain ⟨e00, e01, e10, e11, e20, e21, e30, e31, e40, e41, e50, e51⟩ := idx_facts t
  funext j
  show Cert.Spec.sage (iblk1 V c 0 t) (iblk1 V c 1 t) (iblk1 V c 2 t) (iblk1 V c 3 t) (iblk1 V c 4 t) j
    = Cert.Spec.sage (V c main_v22) (V c main_v34) (V c main_arg8) (V c main_arg9) (V c main_v35) (((cfg1.win 5).blk t).view.emb j)
  have hj0 : (j 0).val < 5000 := (j 0).isLt
  have hj1 : (j 1).val < 64 := (j 1).isLt
  refine Cert.Spec.sage_congr (iblk1 V c 0 t) (iblk1 V c 1 t) (iblk1 V c 2 t) (iblk1 V c 3 t) (iblk1 V c 4 t)
    (V c main_v22) (V c main_v34) (V c main_arg8) (V c main_arg9) (V c main_v35) j (((cfg1.win 5).blk t).view.emb j)
    (fun k => ?_) (fun k => ?_) (fun k => ?_) (fun k => ?_) ?_
  · show V c main_v22 (((cfg1.win 0).blk t).view.emb (ix2 (j 0) k)) = V c main_v22 (ix2 ((((cfg1.win 5).blk t).view.emb j) 0) k)
    refine congrArg (V c main_v22) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · show V c main_v34 (((cfg1.win 1).blk t).view.emb (ix2 (j 0) k)) = V c main_v34 (ix2 ((((cfg1.win 5).blk t).view.emb j) 0) k)
    refine congrArg (V c main_v34) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · show V c main_arg8 (((cfg1.win 2).blk t).view.emb (ix2 k (j 1))) = V c main_arg8 (ix2 k ((((cfg1.win 5).blk t).view.emb j) 1))
    refine congrArg (V c main_arg8) (funext fun a => Fin.ext ?_)
    match a with
    | ⟨0, _⟩ => show win1_2.index t (0 : Fin 2) * 128 + 1 * k.val = k.val; omega
    | ⟨1, _⟩ => show win1_2.index t (1 : Fin 2) * 64 + 1 * (j 1).val = win1_5.index t (1 : Fin 2) * 64 + 1 * (j 1).val; omega
  · show V c main_arg9 (((cfg1.win 3).blk t).view.emb (ix2 k (j 1))) = V c main_arg9 (ix2 k ((((cfg1.win 5).blk t).view.emb j) 1))
    refine congrArg (V c main_arg9) (funext fun a => Fin.ext ?_)
    match a with
    | ⟨0, _⟩ => show win1_3.index t (0 : Fin 2) * 128 + 1 * k.val = k.val; omega
    | ⟨1, _⟩ => show win1_3.index t (1 : Fin 2) * 64 + 1 * (j 1).val = win1_5.index t (1 : Fin 2) * 64 + 1 * (j 1).val; omega
  · show V c main_v35 (((cfg1.win 4).blk t).view.emb (ix2 (0 : Fin 1) (j 1))) = V c main_v35 (ix2 (0 : Fin 1) ((((cfg1.win 5).blk t).view.emb j) 1))
    refine congrArg (V c main_v35) (funext fun a => Fin.ext ?_)
    match a with
    | ⟨0, _⟩ => show win1_4.index t (0 : Fin 2) * 1 + 1 * 0 = 0; omega
    | ⟨1, _⟩ => show win1_4.index t (1 : Fin 2) * 64 + 1 * (j 1).val = win1_5.index t (1 : Fin 2) * 64 + 1 * (j 1).val; omega

/-- An index of the output array is in point `t`'s block iff each coordinate is in the block's range on its axis. -/
theorem mem_blk (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v36).slice (win1_5.rect t)).set ↔ _
  rw [View.set_slice_whole, Rect.mem_set_unit]
  exact Iff.rfl

/-- Every row of the output is in the block of the point `row / 5000`. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_5 _, ?_⟩
  rw [mem_blk]
  obtain ⟨e00, e01, e10, e11, e20, e21, e30, e31, e40, e41, e50, e51⟩ := idx_facts ⟨(i 0).val / 5000, by rw [hN]; omega⟩
  intro a
  match a with
  | ⟨0, _⟩ =>
    show win1_5.index ⟨(i 0).val / 5000, _⟩ (0 : Fin 2) * 5000 ≤ (i 0).val ∧ (i 0).val < win1_5.index ⟨(i 0).val / 5000, _⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, _⟩ (1 : Fin 2) * 64 ≤ (i 1).val ∧ (i 1).val < win1_5.index ⟨(i 0).val / 5000, _⟩ (1 : Fin 2) * 64 + 64
    rw [e51]; omega

/-- THE REGION'S VALUE: after the run the output array is `Spec.sage` of the arrays the region found. -/
theorem value (c : Dev nD) :
    (dat1 V c).arrAt 5 cfg1.N
      = Cert.Spec.sage (V c main_v22) (V c main_v34) (V c main_arg8) (V c main_arg9) (V c main_v35) :=
  (dat1 V c).arrAt_eq_of_cover 5 _ (fun t _ => flushed_eq V c t) cover

end Cert.KernelIdeal.Region1

end
-- ==== Proof.Region2.lean ====
/-
  The edge scorer's region: what its output array holds after the run.

  The region runs over 200 grid points. At point `t` the row operand's window holds rows `8000·t … 8000·t + 7999` of
  the concatenated endpoint embeddings, the two weight windows and the two bias windows hold their whole arrays, and
  the body stores `Spec.edgeMlp` of those blocks (`Payload.edge_eq`) into the output window's block, rows `8000·t …`
  of the score column. Row `p` of `Spec.edgeMlp` reads row `p` of the row operand only, so point `t` writes back block
  `t` of `Spec.edgeMlp` of the whole arrays; the 200 blocks tile the 1600000 rows. All of it at a parameter `V`, the
  buffer contents when the region is entered.
-/
import proofs.«116739_j80642305949836_1_alg».proof.Proof.Gen.KernelIdeal.Frame
import proofs.«116739_j80642305949836_1_alg».proof.Proof.Payload
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the row window and the output window are at block `t` of the rows,
    every other block index is zero. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- WHAT POINT `t` WRITES BACK is block `t` of `Spec.edgeMlp` of the arrays as the region finds them. -/
theorem flushed_eq (c : Dev nD) (t : Fin cfg2.N) :
    (dat2 V c).flushed 5 t = ((cfg2.win 5).blk t).view.read (Elt Ideal)
      (Cert.Spec.edgeMlp (V c main_v51) (V c main_arg11) (V c main_v52) (V c main_arg13) (V c main_v53)) := by
  show (cfg2.win 5).cut (grid2.coords t) ((dat2 V c).after 5 t) = _
  rw [after2_5]
  unfold out2_5
  rw [View.canon_unit_zero hz]
  simp only [View.ld_unit_zero (S := S8000x128) hz, View.ld_unit_zero (S := S128x128) hz, View.ld_unit_zero (S := S1x128) hz,
    View.ld_unit_zero (S := S128x1) hz, View.ld_unit_zero (S := S1x1) hz]
  rw [Payload.edge_eq (iblk2 V c 0 t) (iblk2 V c 1 t) (iblk2 V c 2 t) (iblk2 V c 3 t) (iblk2 V c 4 t)]
  obtain ⟨e00, e01, e10, e11, e20, e21, e30, e31, e40, e41, e50, e51⟩ := idx_facts t
  funext j
  show Cert.Spec.edgeMlp (iblk2 V c 0 t) (iblk2 V c 1 t) (iblk2 V c 2 t) (iblk2 V c 3 t) (iblk2 V c 4 t) j
    = Cert.Spec.edgeMlp (V c main_v51) (V c main_arg11) (V c main_v52) (V c main_arg13) (V c main_v53) (((cfg2.win 5).blk t).view.emb j)
  have hj0 : (j 0).val < 8000 := (j 0).isLt
  have hj1 : (j 1).val < 1 := (j 1).isLt
  refine Cert.Spec.edgeMlp_congr (iblk2 V c 0 t) (iblk2 V c 1 t) (iblk2 V c 2 t) (iblk2 V c 3 t) (iblk2 V c 4 t)
    (V c main_v51) (V c main_arg11) (V c main_v52) (V c main_arg13) (V c main_v53) j (((cfg2.win 5).blk t).view.emb j)
    (fun k => ?_) (fun k l => ?_) (fun l => ?_) (fun l => ?_) ?_
  · show V c main_v51 (((cfg2.win 0).blk t).view.emb (ix2 (j 0) k)) = V c main_v51 (ix2 ((((cfg2.win 5).blk t).view.emb j) 0) k)
    refine congrArg (V c main_v51) (funext fun a => Fin.ext ?_)
    match a with
    | ⟨0, _⟩ => show win2_0.index t (0 : Fin 2) * 8000 + 1 * (j 0).val = win2_5.index t (0 : Fin 2) * 8000 + 1 * (j 0).val; omega
    | ⟨1, _⟩ => show win2_0.index t (1 : Fin 2) * 128 + 1 * k.val = k.val; omega
  · show V c main_arg11 (((cfg2.win 1).blk t).view.emb (ix2 k l)) = V c main_arg11 (ix2 k l)
    refine congrArg (V c main_arg11) (funext fun a => Fin.ext ?_)
    match a with
    | ⟨0, _⟩ => show win2_1.index t (0 : Fin 2) * 128 + 1 * k.val = k.val; omega
    | ⟨1, _⟩ => show win2_1.index t (1 : Fin 2) * 128 + 1 * l.val = l.val; omega
  · show V c main_v52 (((cfg2.win 2).blk t).view.emb (ix2 (0 : Fin 1) l)) = V c main_v52 (ix2 (0 : Fin 1) l)
    refine congrArg (V c main_v52) (funext fun a => Fin.ext ?_)
    match a with
    | ⟨0, _⟩ => show win2_2.index t (0 : Fin 2) * 1 + 1 * 0 = 0; omega
    | ⟨1, _⟩ => show win2_2.index t (1 : Fin 2) * 128 + 1 * l.val = l.val; omega
  · show V c main_arg13 (((cfg2.win 3).blk t).view.emb (ix2 l (j 1))) = V c main_arg13 (ix2 l ((((cfg2.win 5).blk t).view.emb j) 1))
    refine congrArg (V c main_arg13) (funext fun a => Fin.ext ?_)
    match a with
    | ⟨0, _⟩ => show win2_3.index t (0 : Fin 2) * 128 + 1 * l.val = l.val; omega
    | ⟨1, _⟩ => show win2_3.index t (1 : Fin 2) * 1 + 1 * (j 1).val = win2_5.index t (1 : Fin 2) * 1 + 1 * (j 1).val; omega
  · show V c main_v53 (((cfg2.win 4).blk t).view.emb (ix2 (0 : Fin 1) (j 1))) = V c main_v53 (ix2 (0 : Fin 1) ((((cfg2.win 5).blk t).view.emb j) 1))
    refine congrArg (V c main_v53) (funext fun a => Fin.ext ?_)
    match a with
    | ⟨0, _⟩ => show win2_4.index t (0 : Fin 2) * 1 + 1 * 0 = 0; omega
    | ⟨1, _⟩ => show win2_4.index t (1 : Fin 2) * 1 + 1 * (j 1).val = win2_5.index t (1 : Fin 2) * 1 + 1 * (j 1).val; omega

/-- An index of the output array is in point `t`'s block iff each coordinate is in the block's range on its axis. -/
theorem mem_blk (t : Fin cfg2.N) (i : S1600000x1.Idx) :
    i ∈ ((cfg2.win 5).blk t).view.set ↔ ∀ a : Fin 2, win2_5.index t a * S8000x1.size a ≤ (i a).val
      ∧ (i a).val < win2_5.index t a * S8000x1.size a + S8000x1.size a := by
  show i ∈ ((View.whole main_v54).slice (win2_5.rect t)).set ↔ _
  rw [View.set_slice_whole, Rect.mem_set_unit]
  exact Iff.rfl

/-- Every row of the output is in the block of the point `row / 8000`. -/
theorem cover (i : S1600000x1.Idx) : ∃ t : Fin cfg2.N, (cfg2.win 5).flush t = true ∧ i ∈ ((cfg2.win 5).blk t).view.set := by
  have hi0 : (i 0).val < 1600000 := (i 0).isLt
  have hi1 : (i 1).val < 1 := (i 1).isLt
  have hN : cfg2.N = 200 := N_2
  refine ⟨⟨(i 0).val / 8000, by rw [hN]; omega⟩, flush2_5 _, ?_⟩
  rw [mem_blk]
  obtain ⟨e00, e01, e10, e11, e20, e21, e30, e31, e40, e41, e50, e51⟩ := idx_facts ⟨(i 0).val / 8000, by rw [hN]; omega⟩
  intro a
  match a with
  | ⟨0, _⟩ =>
    show win2_5.index ⟨(i 0).val / 8000, _⟩ (0 : Fin 2) * 8000 ≤ (i 0).val ∧ (i 0).val < win2_5.index ⟨(i 0).val / 8000, _⟩ (0 : Fin 2) * 8000 + 8000
    rw [e50]; show (i 0).val / 8000 * 8000 ≤ (i 0).val ∧ (i 0).val < (i 0).val / 8000 * 8000 + 8000; omega
  | ⟨1, _⟩ =>
    show win2_5.index ⟨(i 0).val / 8000, _⟩ (1 : Fin 2) * 1 ≤ (i 1).val ∧ (i 1).val < win2_5.index ⟨(i 0).val / 8000, _⟩ (1 : Fin 2) * 1 + 1
    rw [e51]; omega

/-- THE REGION'S VALUE: after the run the score column is `Spec.edgeMlp` of the arrays the region found. -/
theorem value (c : Dev nD) :
    (dat2 V c).arrAt 5 cfg2.N
      = Cert.Spec.edgeMlp (V c main_v51) (V c main_arg11) (V c main_v52) (V c main_arg13) (V c main_v53) :=
  (dat2 V c).arrAt_eq_of_cover 5 _ (fun t _ => flushed_eq V c t) cover

end Cert.KernelIdeal.Region2

end
-- ==== Proof.RefLayers.lean ====
/-
  The reference's dense stages are the specification's functions.

  The reference computes each SAGE layer as `max (X · Ws + A · Wn + broadcast b, 0)` with two whole-array products, and
  the edge scorer as `1 / (1 + exp (-(max (X · W1 + b1, 0) · W2 + b2)))`. Read at an index — each product the sum over
  the contracted axis, each broadcast its operand's entry, the sigmoid's quotient the ideal `logistic` — these are
  `Spec.sage` and `Spec.edgeMlp` of the stages they are computed from.
-/
import proofs.«116739_j80642305949836_1_alg».proof.Proof.Gen.ReferenceIdeal.Read
import proofs.«116739_j80642305949836_1_alg».proof.Proof.Spec
import proofs.«116739_j80642305949836_1_alg».proof.Proof.LibDotRows

noncomputable section

open scoped BigOperators

namespace Cert.ReferenceIdeal.Dense

open Idealize.ShloMosaic Idealize.ShloMosaic.ValueIdx Idealize.ShloMosaic.DotRows
open Cert.ReferenceIdeal Cert.ReferenceIdeal.Gen Cert.ReferenceIdeal.Read

theorem plain_rows100000_128 : Plain dot_S100000x128_S128x128_S100000x128_1_0_0_1_n_n := ⟨rfl, rfl, rfl, rfl, rfl, rfl⟩
theorem plain_rows100000_64 : Plain dot_S100000x128_S128x64_S100000x64_1_0_0_1_n_n := ⟨rfl, rfl, rfl, rfl, rfl, rfl⟩
theorem plain_rows1600000_128 : Plain dot_S1600000x128_S128x128_S1600000x128_1_0_0_1_n_n := ⟨rfl, rfl, rfl, rfl, rfl, rfl⟩
theorem plain_rows1600000_1 : Plain dot_S1600000x128_S128x1_S1600000x1_1_0_0_1_n_n := ⟨rfl, rfl, rfl, rfl, rfl, rfl⟩

/-- The zero word denotes zero. -/
theorem zero_word : (FloatOps.ofBits (F := Ideal) .f32 0x00000000#32) = (0 : EReal) := Ideal.ofBits_zero_f32

/-! ## The first SAGE layer -/

theorem bias1_idx (p : Fin 100000) (q : Fin 128) : idx_main_v24 (idx_main_v25 (ix2 p q)) = ix1 q :=
  funext fun a => match a with | ⟨0, _⟩ => rfl

theorem layer1 (x0 : FVec Ideal S100000x128 .f32) (x1 x2 : IVec S1600000 32) (x5 x6 : FVec Ideal S128x128 .f32) (x7 : FVec Ideal S128 .f32) :
    val_main_v27 (F := Ideal) x0 x1 x2 x5 x6 x7
      = Cert.Spec.sage x0 (val_main_v20 (F := Ideal) x0 x1 x2) x5 x6 (Cert.Spec.row x7) := by
  funext i
  obtain ⟨p, q, rfl⟩ : ∃ (p : Fin 100000) (q : Fin 128), i = ix2 p q := ⟨i 0, i 1, eq_ix2 i⟩
  rw [Cert.Spec.sage_apply, Cert.Spec.row_apply, val_main_v27_apply, val_main_v26_apply, val_main_v23_apply, val_main_v25_apply, val_main_v24_apply,
    val_main_call0_v0_apply, val_main_call0_cst_apply, bias1_idx]
  unfold val_main_v21 val_main_v22
  rw [plain_rows100000_128.hostDot_apply, plain_rows100000_128.hostDot_apply]
  simp only [Ideal.addf_def, Ideal.maximumf_def, zero_word]

/-! ## The second SAGE layer -/

theorem bias2_idx (p : Fin 100000) (q : Fin 64) : idx_main_v43 (idx_main_v44 (ix2 p q)) = ix1 q :=
  funext fun a => match a with | ⟨0, _⟩ => rfl

theorem layer2 (x0 : FVec Ideal S100000x128 .f32) (x1 x2 : IVec S1600000 32) (x5 x6 : FVec Ideal S128x128 .f32) (x7 : FVec Ideal S128 .f32)
    (x8 x9 : FVec Ideal S128x64 .f32) (x10 : FVec Ideal S64 .f32) :
    val_main_v46 (F := Ideal) x0 x1 x2 x5 x6 x7 x8 x9 x10
      = Cert.Spec.sage (val_main_v27 (F := Ideal) x0 x1 x2 x5 x6 x7) (val_main_v39 (F := Ideal) x0 x1 x2 x5 x6 x7) x8 x9 (Cert.Spec.row x10) := by
  funext i
  obtain ⟨p, q, rfl⟩ : ∃ (p : Fin 100000) (q : Fin 64), i = ix2 p q := ⟨i 0, i 1, eq_ix2 i⟩
  rw [Cert.Spec.sage_apply, Cert.Spec.row_apply, val_main_v46_apply, val_main_v45_apply, val_main_v42_apply, val_main_v44_apply, val_main_v43_apply,
    val_main_call1_v0_apply, val_main_call1_cst_apply, bias2_idx]
  unfold val_main_v40 val_main_v41
  rw [plain_rows100000_64.hostDot_apply, plain_rows100000_64.hostDot_apply]
  simp only [Ideal.addf_def, Ideal.maximumf_def, zero_word]

/-! ## The scorer's input rows -/

/-- Rows of `H` gathered at the indices `s`, a negative index counted from the end as jnp's indexing does. -/
def rowsAt (H : FVec Ideal S100000x64 .f32) (s : IVec S1600000 32) : FVec Ideal S1600000x64 .f32 :=
  Host.gather gather_S100000x64_S1600000x1_S1600000x64_1_0_n_n_0_1_164 H
    (broadcastInDim S1600000x1 ![0] bcast_S1600000_S1600000x1_0
      (select (cmpi .slt s (broadcastInDim S1600000 ![] bcast_S_S1600000 (constantI S_ 32 0#32)))
        (addi s (broadcastInDim S1600000 ![] bcast_S_S1600000 (constantI S_ 32 100000#32))) s))

/-- The two endpoints' rows of `H` side by side: what the scorer is applied to. -/
def pairRows (H : FVec Ideal S100000x64 .f32) (s d : IVec S1600000 32) : FVec Ideal S1600000x128 .f32 :=
  concatenate S1600000x128 1 [⟨S1600000x64, rowsAt H s⟩, ⟨S1600000x64, rowsAt H d⟩] concatenates_S1600000x64_S1600000x64_S1600000x128_d1

/-- The reference's scorer input is `pairRows` of its second layer. -/
theorem v61_eq (x0 : FVec Ideal S100000x128 .f32) (x1 x2 x3 x4 : IVec S1600000 32) (x5 x6 : FVec Ideal S128x128 .f32) (x7 : FVec Ideal S128 .f32)
    (x8 x9 : FVec Ideal S128x64 .f32) (x10 : FVec Ideal S64 .f32) :
    val_main_v61 (F := Ideal) x0 x1 x2 x3 x4 x5 x6 x7 x8 x9 x10
      = pairRows (val_main_v46 (F := Ideal) x0 x1 x2 x5 x6 x7 x8 x9 x10) x3 x4 := rfl

/-! ## The edge scorer -/

/-- The word of `1.0` denotes one. -/
theorem one_word : (FloatOps.ofBits (F := Ideal) .f32 0x3F800000#32) = (1 : EReal) := by
  show Ideal.ofBits .f32 0x3F800000#32 = 1
  simp [Ideal.ofBits, Ideal.ieee, -EReal.coe_mul]; norm_num

theorem bias3_idx (p : Fin 1600000) (j : Fin 128) : idx_main_v63 (idx_main_v64 (ix2 p j)) = ix1 j :=
  funext fun a => match a with | ⟨0, _⟩ => rfl

theorem bias4_idx (p : Fin 1600000) (q : Fin 1) : idx_main_v68 (idx_main_v69 (ix2 p q)) = ix1 q :=
  funext fun a => match a with
    | ⟨0, _⟩ => Fin.ext ((Nat.lt_one_iff.mp (Fin.isLt _)).trans (Nat.lt_one_iff.mp q.isLt).symm)

/-- The reference's hidden activations at `(p, j)`. -/
theorem hidden_ref (x0 : FVec Ideal S100000x128 .f32) (x1 x2 x3 x4 : IVec S1600000 32) (x5 x6 : FVec Ideal S128x128 .f32) (x7 : FVec Ideal S128 .f32) (x8 x9 : FVec Ideal S128x64 .f32) (x10 : FVec Ideal S64 .f32) (x11 : FVec Ideal S128x128 .f32) (x12 : FVec Ideal S128 .f32) (p : Fin 1600000) (j : Fin 128) :
    val_main_v66 (F := Ideal) x0 x1 x2 x3 x4 x5 x6 x7 x8 x9 x10 x11 x12 (ix2 p j)
      = Cert.Spec.hidden (val_main_v61 (F := Ideal) x0 x1 x2 x3 x4 x5 x6 x7 x8 x9 x10) x11 (Cert.Spec.row x12) (ix2 p j) := by
  rw [Cert.Spec.hidden_apply, Cert.Spec.row_apply, val_main_v66_apply, val_main_v65_apply, val_main_v64_apply, val_main_v63_apply,
    val_main_call2_v0_apply, val_main_call2_cst_apply, bias3_idx]
  unfold val_main_v62
  rw [plain_rows1600000_128.hostDot_apply]
  simp only [Ideal.addf_def, Ideal.maximumf_def, zero_word]

theorem layer3 (x0 : FVec Ideal S100000x128 .f32) (x1 x2 x3 x4 : IVec S1600000 32) (x5 x6 : FVec Ideal S128x128 .f32) (x7 : FVec Ideal S128 .f32) (x8 x9 : FVec Ideal S128x64 .f32) (x10 : FVec Ideal S64 .f32) (x11 : FVec Ideal S128x128 .f32) (x12 : FVec Ideal S128 .f32) (x13 : FVec Ideal S128x1 .f32) (x14 : FVec Ideal S1 .f32) :
    val_main_v76 (F := Ideal) x0 x1 x2 x3 x4 x5 x6 x7 x8 x9 x10 x11 x12 x13 x14
      = Cert.Spec.edgeMlp (val_main_v61 (F := Ideal) x0 x1 x2 x3 x4 x5 x6 x7 x8 x9 x10) x11 (Cert.Spec.row x12) x13 (Cert.Spec.row x14) := by
  funext i
  obtain ⟨p, q, rfl⟩ : ∃ (p : Fin 1600000) (q : Fin 1), i = ix2 p q := ⟨i 0, i 1, eq_ix2 i⟩
  rw [Cert.Spec.edgeMlp_apply, Cert.Spec.row_apply]
  simp only [val_main_v76_apply, val_main_v75_apply, val_main_cst_13_apply, val_main_v74_apply, val_main_v73_apply, val_main_cst_12_apply,
    val_main_v72_apply, val_main_v71_apply, val_main_v70_apply, val_main_v69_apply, val_main_v68_apply, bias4_idx]
  unfold val_main_v67
  rw [plain_rows1600000_1.hostDot_apply]
  simp only [hidden_ref, Ideal.hostDivf_def, Ideal.addf_def, Ideal.hostUnary_exp_def, Ideal.hostNegf_def, one_word]
  rfl

end Cert.ReferenceIdeal.Dense

end
-- ==== Proof.KernelValues.lean ====
/-
  The kernel program's buffers at each region boundary, as the reference's stages of the launch arguments.

  @main is three stretches of host operations, each followed by a region. A stretch computes from buffers it does not
  write — the launch arguments and the earlier regions' outputs — exactly the operations the reference applies at the
  same place (the in-degree and its inverse, a gather of rows and a scatter-add by destination scaled by the inverse
  degree, two gathers joined side by side), and reshapes a bias vector to one row. So, going forward through @main:
  the first region is entered with the reference's first neighbour mean, and leaves the reference's first layer
  (its value, `Region0.value`, against the reference's, `Dense.layer1`); the second stretch then computes the reference's
  second neighbour mean of THAT array, the second region leaves the reference's second layer; the third stretch joins
  the gathered endpoint rows as the reference does, and the third region leaves the reference's scores.
-/
import proofs.«116739_j80642305949836_1_alg».proof.Proof.Region0
import proofs.«116739_j80642305949836_1_alg».proof.Proof.Region1
import proofs.«116739_j80642305949836_1_alg».proof.Proof.Region2
import proofs.«116739_j80642305949836_1_alg».proof.Proof.RefLayers
import proofs.«116739_j80642305949836_1_alg».proof.Proof.KernelRun
import Idealize.ShloMosaic.Lib.StableHlo.Run
import Idealize.ShloMosaic.Lib.ValueLayout

set_option maxRecDepth 16384

noncomputable section

namespace Cert.KernelIdeal.Values

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg)

/-- No operation of a literal list of host operations writes the reference in the goal. -/
macro "not_written " ops:ident : tactic =>
  `(tactic| (refine List.forall_iff_forall_mem.mp ?_
             simp only [$ops:ident, List.flatten_cons, List.flatten_nil, List.append_nil, List.cons_append, List.nil_append, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

/-! ## A bias vector reshaped to one row -/

theorem reshape_row {h : ℕ} (b : FVec Ideal ⟨1, ![h]⟩ .f32) (hc : (⟨1, ![h]⟩ : Shape).ShapeCasts ⟨2, ![1, h]⟩) :
    shapeCast ⟨2, ![1, h]⟩ b hc = Cert.Spec.row b := by
  funext i
  obtain ⟨u, q, rfl⟩ : ∃ (u : Fin 1) (q : Fin h), i = ix2 u q := ⟨i 0, i 1, eq_ix2 i⟩
  rw [shapeCast_a_1a_apply, Cert.Spec.row_apply]

/-! ## Up to the first region: buffers the first stretch does not write, and the two it computes -/

theorem W1_keep (c : Dev nD) (b : Ref sig .tc)
    (h : ∀ op ∈ (hostOps0 : List (HloOp τ sig (Elt Ideal))), (Proc.devRef .tc b : DevRef τ sig) ∉ op.writes) :
    W1 m ρ c (Proc.devRef .tc b) = m ((c : Thread nD τ).loc b) :=
  StableHlo.after_of_forall_not_mem (b := Proc.devRef .tc b) _ _ h

theorem V1_arg0 (c : Dev nD) : V1 m ρ c main_arg0 = (m ((c : Thread nD τ).loc main_arg0)) := W1_keep m ρ c main_arg0 (by not_written hostOps0)
theorem V1_arg5 (c : Dev nD) : V1 m ρ c main_arg5 = (m ((c : Thread nD τ).loc main_arg5)) := W1_keep m ρ c main_arg5 (by not_written hostOps0)
theorem V1_arg6 (c : Dev nD) : V1 m ρ c main_arg6 = (m ((c : Thread nD τ).loc main_arg6)) := W1_keep m ρ c main_arg6 (by not_written hostOps0)

set_option maxHeartbeats 4000000 in
/-- The first region's neighbour mean is the reference's. -/
theorem V1_v20 (c : Dev nD) : V1 m ρ c main_v20 = Cert.ReferenceIdeal.Read.val_main_v20 (F := Ideal) (m ((c : Thread nD τ).loc main_arg0)) (m ((c : Thread nD τ).loc main_arg1)) (m ((c : Thread nD τ).loc main_arg2)) := by
  show StableHlo.after hostOps0 (W0 m ρ c) (Proc.devRef .tc main_v20) = _
  after_results_simp
  rfl

set_option maxHeartbeats 4000000 in
/-- The inverse in-degree column is the reference's. -/
theorem W1_v8 (c : Dev nD) : W1 m ρ c (Proc.devRef .tc main_v8) = Cert.ReferenceIdeal.Read.val_main_v8 (F := Ideal) (m ((c : Thread nD τ).loc main_arg2)) := by
  show StableHlo.after hostOps0 (W0 m ρ c) (Proc.devRef .tc main_v8) = _
  after_results_simp
  rfl

set_option maxHeartbeats 4000000 in
theorem V1_v21 (c : Dev nD) : V1 m ρ c main_v21 = Cert.Spec.row (m ((c : Thread nD τ).loc main_arg7)) := by
  show StableHlo.after hostOps0 (W0 m ρ c) (Proc.devRef .tc main_v21) = _
  after_results_simp
  exact reshape_row (m ((c : Thread nD τ).loc main_arg7)) shapeCasts_S128_S1x128

/-! ## The first region's output, and what the second stretch reads -/

/-- After the first region its output array is the reference's first layer. -/
theorem W2_v22 (c : Dev nD) : W2 m ρ c (Proc.devRef .tc main_v22) = Cert.ReferenceIdeal.Read.val_main_v27 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) := by
  refine (W2_arr m ρ c 5).trans ?_
  rw [Region0.value (V1 m ρ) c, V1_arg0, V1_v20, V1_arg5, V1_arg6, V1_v21]
  exact (Cert.ReferenceIdeal.Dense.layer1 _ _ _ _ _ _).symm

theorem W2_keep (c : Dev nD) (b : Ref sig .tc) (hb : ∀ w, Pipeline.arrRef spec0 w ≠ b)
    (h : ∀ op ∈ (hostOps0 : List (HloOp τ sig (Elt Ideal))), (Proc.devRef .tc b : DevRef τ sig) ∉ op.writes) :
    W2 m ρ c (Proc.devRef .tc b) = m ((c : Thread nD τ).loc b) :=
  (W2_of_ne m ρ c b hb).trans (W1_keep m ρ c b h)

theorem W2_v8 (c : Dev nD) : W2 m ρ c (Proc.devRef .tc main_v8) = Cert.ReferenceIdeal.Read.val_main_v8 (F := Ideal) (m ((c : Thread nD τ).loc main_arg2)) :=
  (W2_of_ne m ρ c main_v8 (by decide)).trans (W1_v8 m ρ c)

theorem W3_keep (c : Dev nD) (b : Ref sig .tc)
    (h : ∀ op ∈ (hostOps1 : List (HloOp τ sig (Elt Ideal))), (Proc.devRef .tc b : DevRef τ sig) ∉ op.writes) :
    W3 m ρ c (Proc.devRef .tc b) = W2 m ρ c (Proc.devRef .tc b) :=
  StableHlo.after_of_forall_not_mem (b := Proc.devRef .tc b) _ _ h

theorem V3_v22 (c : Dev nD) : V3 m ρ c main_v22 = Cert.ReferenceIdeal.Read.val_main_v27 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) :=
  (W3_keep m ρ c main_v22 (by not_written hostOps1)).trans (W2_v22 m ρ c)
theorem V3_arg8 (c : Dev nD) : V3 m ρ c main_arg8 = (m ((c : Thread nD τ).loc main_arg8)) :=
  (W3_keep m ρ c main_arg8 (by not_written hostOps1)).trans (W2_keep m ρ c main_arg8 (by decide) (by not_written hostOps0))
theorem V3_arg9 (c : Dev nD) : V3 m ρ c main_arg9 = (m ((c : Thread nD τ).loc main_arg9)) :=
  (W3_keep m ρ c main_arg9 (by not_written hostOps1)).trans (W2_keep m ρ c main_arg9 (by decide) (by not_written hostOps0))

set_option maxHeartbeats 4000000 in
/-- The second region's neighbour mean is the reference's: the same operations on the first layer's output. -/
theorem V3_v34 (c : Dev nD) : V3 m ρ c main_v34 = Cert.ReferenceIdeal.Read.val_main_v39 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) := by
  show StableHlo.after hostOps1 (W2 m ρ c) (Proc.devRef .tc main_v34) = _
  after_results_simp
  rw [W2_v22, W2_v8, W2_keep m ρ c main_arg1 (by decide) (by not_written hostOps0), W2_keep m ρ c main_arg2 (by decide) (by not_written hostOps0)]
  rfl

set_option maxHeartbeats 4000000 in
theorem V3_v35 (c : Dev nD) : V3 m ρ c main_v35 = Cert.Spec.row (m ((c : Thread nD τ).loc main_arg10)) := by
  show StableHlo.after hostOps1 (W2 m ρ c) (Proc.devRef .tc main_v35) = _
  after_results_simp
  rw [W2_keep m ρ c main_arg10 (by decide) (by not_written hostOps0)]
  exact reshape_row (m ((c : Thread nD τ).loc main_arg10)) shapeCasts_S64_S1x64

/-! ## The second region's output, and what the third stretch reads -/

/-- After the second region its output array is the reference's second layer. -/
theorem W4_v36 (c : Dev nD) : W4 m ρ c (Proc.devRef .tc main_v36) = Cert.ReferenceIdeal.Read.val_main_v46 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 5).trans ?_
  rw [Region1.value (V3 m ρ) c, V3_v22, V3_v34, V3_arg8, V3_arg9, V3_v35]
  exact (Cert.ReferenceIdeal.Dense.layer2 _ _ _ _ _ _ _ _ _).symm

theorem W4_keep (c : Dev nD) (b : Ref sig .tc) (hb1 : ∀ w, Pipeline.arrRef spec1 w ≠ b)
    (h1 : ∀ op ∈ (hostOps1 : List (HloOp τ sig (Elt Ideal))), (Proc.devRef .tc b : DevRef τ sig) ∉ op.writes)
    (hb0 : ∀ w, Pipeline.arrRef spec0 w ≠ b)
    (h0 : ∀ op ∈ (hostOps0 : List (HloOp τ sig (Elt Ideal))), (Proc.devRef .tc b : DevRef τ sig) ∉ op.writes) :
    W4 m ρ c (Proc.devRef .tc b) = m ((c : Thread nD τ).loc b) :=
  (W4_of_ne m ρ c b hb1).trans ((W3_keep m ρ c b h1).trans (W2_keep m ρ c b hb0 h0))

theorem W5_keep (c : Dev nD) (b : Ref sig .tc)
    (h : ∀ op ∈ (hostOps2 : List (HloOp τ sig (Elt Ideal))), (Proc.devRef .tc b : DevRef τ sig) ∉ op.writes) :
    W5 m ρ c (Proc.devRef .tc b) = W4 m ρ c (Proc.devRef .tc b) :=
  StableHlo.after_of_forall_not_mem (b := Proc.devRef .tc b) _ _ h

theorem V5_arg11 (c : Dev nD) : V5 m ρ c main_arg11 = (m ((c : Thread nD τ).loc main_arg11)) :=
  (W5_keep m ρ c main_arg11 (by not_written hostOps2)).trans
    (W4_keep m ρ c main_arg11 (by decide) (by not_written hostOps1) (by decide) (by not_written hostOps0))
theorem V5_arg13 (c : Dev nD) : V5 m ρ c main_arg13 = (m ((c : Thread nD τ).loc main_arg13)) :=
  (W5_keep m ρ c main_arg13 (by not_written hostOps2)).trans
    (W4_keep m ρ c main_arg13 (by decide) (by not_written hostOps1) (by decide) (by not_written hostOps0))

set_option maxHeartbeats 16000000 in
/-- The scorer's rows are the two endpoints' rows of the second region's output side by side. -/
theorem V5_v51_raw (c : Dev nD) : V5 m ρ c main_v51
    = Cert.ReferenceIdeal.Dense.pairRows (W4 m ρ c (Proc.devRef .tc main_v36)) (W4 m ρ c (Proc.devRef .tc main_arg3)) (W4 m ρ c (Proc.devRef .tc main_arg4)) := by
  show StableHlo.after hostOps2 (W4 m ρ c) (Proc.devRef .tc main_v51) = _
  after_results_simp
  -- the two joined operands are themselves results of earlier operations of the stretch: each is read back the same way
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

/-- The scorer's rows — the two endpoints' embeddings side by side — are the reference's. -/
theorem V5_v51 (c : Dev nD) : V5 m ρ c main_v51 = Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [V5_v51_raw, W4_v36, W4_keep m ρ c main_arg3 (by decide) (by not_written hostOps1) (by decide) (by not_written hostOps0),
    W4_keep m ρ c main_arg4 (by decide) (by not_written hostOps1) (by decide) (by not_written hostOps0)]
  exact (Cert.ReferenceIdeal.Dense.v61_eq _ _ _ _ _ _ _ _ _ _ _).symm

set_option maxHeartbeats 4000000 in
theorem V5_v52 (c : Dev nD) : V5 m ρ c main_v52 = Cert.Spec.row (m ((c : Thread nD τ).loc main_arg12)) := by
  show StableHlo.after hostOps2 (W4 m ρ c) (Proc.devRef .tc main_v52) = _
  after_results_simp
  rw [W4_keep m ρ c main_arg12 (by decide) (by not_written hostOps1) (by decide) (by not_written hostOps0)]
  exact reshape_row (m ((c : Thread nD τ).loc main_arg12)) shapeCasts_S128_S1x128

set_option maxHeartbeats 4000000 in
theorem V5_v53 (c : Dev nD) : V5 m ρ c main_v53 = Cert.Spec.row (m ((c : Thread nD τ).loc main_arg14)) := by
  show StableHlo.after hostOps2 (W4 m ρ c) (Proc.devRef .tc main_v53) = _
  after_results_simp
  rw [W4_keep m ρ c main_arg14 (by decide) (by not_written hostOps1) (by decide) (by not_written hostOps0)]
  exact reshape_row (m ((c : Thread nD τ).loc main_arg14)) shapeCasts_S1_S1x1

/-! ## The two results at the last boundary -/

/-- The score column at the return is the reference's. -/
theorem W6_v54 (c : Dev nD) : W6 m ρ c (Proc.devRef .tc main_v54) = Cert.ReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W6_arr m ρ c 5).trans ?_
  rw [Region2.value (V5 m ρ) c, V5_v51, V5_arg11, V5_v52, V5_arg13, V5_v53]
  exact (Cert.ReferenceIdeal.Dense.layer3 _ _ _ _ _ _ _ _ _ _ _ _ _ _ _).symm

/-- The node embeddings at the return are the second region's output, which nothing later writes: the reference's. -/
theorem W6_v36 (c : Dev nD) : W6 m ρ c (Proc.devRef .tc main_v36) = Cert.ReferenceIdeal.Read.val_main_v46 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W6_of_ne m ρ c main_v36 (by decide)).trans ((W5_keep m ρ c main_v36 (by not_written hostOps2)).trans (W4_v36 m ρ c))

/-! ## The run, read -/

/-- Every weakly fair execution of the kernel program terminates, nothing faulting, with its two results at the
    reference's stages of the launch arguments, and the arguments as launched. -/
theorem run : θ_run defs (onTc (τ := τ) (main (F := Ideal))) ⟨m, fun _ => 0, ρ⟩ (fun r => ∀ c : Dev nD,
      r.2.mem ((c : Thread nD τ).loc main_v54) = Cert.ReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_v36) = Cert.ReferenceIdeal.Read.val_main_v46 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)) :=
  (θ_run defs _ _).mono (fun r h c => ⟨(h c).1.trans (W6_v54 m ρ c), (h c).2.1.trans (W6_v36 m ρ c), (h c).2.2⟩)
    (Cert.KernelIdeal.Named.run_named (F := Ideal) m ρ)

end Cert.KernelIdeal.Values

end
-- ==== Proof.lean ====
/-
  The certificate of the two-layer SAGE model with its edge scorer: the kernel program against the jnp reference.

  Both programs compute, from the node features, the two index arrays of the message-passing edges and the two of the
  scoring edges: the in-degree of every node and its inverse; a SAGE layer `relu (h · W_self + mean_neigh(h) · W_neigh + b)`
  twice, the neighbour mean a gather of rows by source, a scatter-add by destination and a scaling by the inverse degree;
  then for every scoring edge the two endpoints' embeddings side by side through `sigmoid (relu (x · W1 + b1) · W2 + b2)`.
  The kernel program keeps the gathers and scatter-adds as the same host operations the reference has and computes the
  three dense stages in three grids of row blocks. At the ideal values a block of rows of a dense stage is the stage of
  that block of rows (each result row reads its own row of the row operands), a product into a zero accumulator is the
  host's product, the format changes are the identity and the scorer's `logistic` is `1 / (1 + e^(-s))`: so each region
  leaves the reference's stage, each host stretch then applies the reference's operations to it, and the two results are
  the reference's, index by index. No law of the extended reals beyond these readings is used, and the precondition is
  never opened. The three frames are the generated ones (the reference's is its run with the results dropped), and the
  idealization rewrote nothing.
-/
import proofs.«116739_j80642305949836_1_alg».proof.Defs
import proofs.«116739_j80642305949836_1_alg».proof.Proof.Gen.Kernel
import proofs.«116739_j80642305949836_1_alg».proof.Proof.Gen.Kernel.Skeleton
import proofs.«116739_j80642305949836_1_alg».proof.Proof.Gen.Kernel.Launch
import proofs.«116739_j80642305949836_1_alg».proof.Proof.Gen.Kernel.Points
import proofs.«116739_j80642305949836_1_alg».proof.Proof.Gen.Kernel.Frame
import proofs.«116739_j80642305949836_1_alg».proof.Proof.Gen.KernelIdeal
import proofs.«116739_j80642305949836_1_alg».proof.Proof.Gen.KernelIdeal.Skeleton
import proofs.«116739_j80642305949836_1_alg».proof.Proof.Gen.KernelIdeal.Launch
import proofs.«116739_j80642305949836_1_alg».proof.Proof.Gen.KernelIdeal.Points
import proofs.«116739_j80642305949836_1_alg».proof.Proof.Gen.KernelIdeal.Frame
import proofs.«116739_j80642305949836_1_alg».proof.Proof.Gen.ReferenceIdeal
import proofs.«116739_j80642305949836_1_alg».proof.Proof.Gen.ReferenceIdeal.Run
import proofs.«116739_j80642305949836_1_alg».proof.Proof.Gen.ReferenceIdeal.Read
import proofs.«116739_j80642305949836_1_alg».proof.Proof.Gen.Pre_finite_inputs
import proofs.«116739_j80642305949836_1_alg».proof.Proof.KernelValues
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The two programs end with equal results: the kernel program's are the reference's stages of its own arguments
    (`Values.run`), the reference's run has them of its arguments, and the arguments agree. -/
theorem algebraic : Cert.algebraic_KernelIdeal_ReferenceIdeal := by
  intro m ρ m' ρ' _ hagree
  refine ⟨_, _, Cert.KernelIdeal.Values.run m ρ, ?_⟩
  refine (θ_run Cert.ReferenceIdeal.defs _ _).mono (fun _ h c => ?_) (Cert.ReferenceIdeal.Value.run (F := Ideal) m' ρ')
  obtain ⟨e0, e1, e2, e3, e4, e5, e6, e7, e8, e9, e10, e11, e12, e13, e14⟩ := hagree c
  refine ⟨(h c).1.trans ?_, (h c).2.1.trans ?_, (h c).2.2⟩
  · rw [Cert.ReferenceIdeal.Read.val_main_v76_eq, e0, e1, e2, e3, e4, e5, e6, e7, e8, e9, e10, e11, e12, e13, e14]
  · rw [Cert.ReferenceIdeal.Read.val_main_v46_eq, e0, e1, e2, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
